-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x64, .f32⟩
  | .hbm, ⟨4, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x64.size a ≤ S2x16x2048x64.size a
  hwx0_3 : ∀ i : grid0.Coords, EltTy.bits .f32 = 32 ∨ (Rect.block (s := S2x16x2048x64) S1x1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x2048.size a ≤ S2x16x2048x2048.size a
  hwx0_4 : ∀ i : grid0.Coords, EltTy.bits .f32 = 32 ∨ (Rect.block (s := S2x16x2048x2048) S1x1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .f32⟩
  | .hbm, ⟨9, _⟩ => ⟨S2x16x2048, .f32⟩
  | .hbm, ⟨10, _⟩ => ⟨S_, .f32⟩
  | .hbm, ⟨11, _⟩ => ⟨S2x16x2048, .f32⟩
  | .hbm, ⟨12, _⟩ => ⟨S2x16x2048, .f32⟩
  | .hbm, ⟨13, _⟩ => ⟨S2x16x2048x1, .f32⟩
  | .hbm, ⟨14, _⟩ => ⟨S2x16x2048x2048, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.SoftmaxLaws.lean ====
/-
  The arithmetic of scaled-dot-product attention on the extended reals, apart from any program.

  * The float patterns the two programs spell, as the extended reals they denote: 1/8, 64, 1, -∞.
    The reference divides by √64 and the kernel multiplies by 1/8: √64 = 8 exactly, and on every
    extended real the quotient by 8 is the product with 1/8 (`div_sqrt64`).
  * A maximum folded from -∞ over a NONEMPTY family of reals is a real (`fold_max_real`).
  * So for real scores the shifted exponentials are positive reals and their row sum is a positive
    real (`softmax_reals`): the row sum is not zero, which is what lets a quotient by it be written
    as a product with its reciprocal (`div_eq_mul_recip`), and what lets that reciprocal move across
    the sum of products with real values (`sum_div_mul`) — distributivity, which fails at the
    infinities and is why the inputs are assumed finite.
-/
import Idealize.ShloMosaic.PureOps.Ideal
import Idealize.ShloMosaic.PureOps.Ideal.Laws

noncomputable section

namespace Cert.Attn

open Idealize.ShloMosaic

/-! ## The constants -/

/-- The kernel's scale `0.125` denotes the real `1/8`. -/
theorem ofBits_eighth : Ideal.ofBits .f32 0x3E000000#32 = (((1 : ℝ) / 8 : ℝ) : EReal) := by
  simp [Ideal.ofBits, Ideal.ieee, -EReal.coe_mul]; norm_num

/-- The reference's `64.0` denotes the real `64`. -/
theorem ofBits_64 : Ideal.ofBits .f32 0x42800000#32 = ((64 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- The pattern of `-inf` denotes the bottom of the extended reals. -/
theorem ofBits_neg_inf : Ideal.ofBits .f32 0xFF800000#32 = (⊥ : EReal) := by
  simp [Ideal.ofBits, Ideal.ieee]

/-- √64 = 8. -/
theorem sqrt_64 : Ideal.sqrt (Ideal.ofBits .f32 0x42800000#32) = ((8 : ℝ) : EReal) := by
  rw [ofBits_64, Ideal.sqrt_coe, if_neg (by norm_num)]
  congr 1
  rw [show (64 : ℝ) = 8 ^ 2 by norm_num, Real.sqrt_sq (by norm_num)]

/-- Dividing by √64 is multiplying by the dyadic 1/8, at the infinities too. -/
theorem div_sqrt64 (x : EReal) :
    Ideal.div x (Ideal.sqrt (Ideal.ofBits .f32 0x42800000#32)) = x * Ideal.ofBits .f32 0x3E000000#32 := by
  rw [sqrt_64, Ideal.div_coe (by norm_num), ofBits_eighth]

/-! ## Sums and maxima of reals inside the extended reals -/

/-- A finite sum of reals, taken in the extended reals, is the real sum. -/
theorem coe_sum {ι : Type*} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- The maximum folded from -∞ over a finite family of reals is -∞ or a real; over a nonempty family, a real. -/
theorem fold_max_real {ι : Type*} (s : Finset ι) (hs : s.Nonempty) (f : ι → ℝ) :
    ∃ r : ℝ, s.fold max (⊥ : EReal) (fun k => (f k : EReal)) = (r : EReal) := by
  classical
  have key : ∀ t : Finset ι, (t = ∅ ∧ t.fold max (⊥ : EReal) (fun k => (f k : EReal)) = ⊥)
      ∨ ∃ r : ℝ, t.fold max (⊥ : EReal) (fun k => (f k : EReal)) = (r : EReal) := by
    intro t
    refine Finset.induction_on t (Or.inl ⟨rfl, Finset.fold_empty⟩) ?_
    intro a u ha ih
    right
    rw [Finset.fold_insert ha]
    rcases ih with ⟨_, hb⟩ | ⟨r, hr⟩
    · exact ⟨f a, by rw [hb]; exact max_eq_left bot_le⟩
    · rw [hr]
      rcases le_total (f a) r with h | h
      · exact ⟨r, max_eq_right (EReal.coe_le_coe_iff.mpr h)⟩
      · exact ⟨f a, max_eq_left (EReal.coe_le_coe_iff.mpr h)⟩
  rcases key s with ⟨he, _⟩ | h
  · exact absurd he hs.ne_empty
  · exact h

/-! ## The softmax of real scores -/

/-- For real scores over a nonempty index set: the exponentials of the scores shifted by their
    maximum (folded from -∞) are reals, and their sum is a nonzero real. -/
theorem softmax_reals {n : Nat} (hn : 0 < n) (s : Fin n → ℝ) :
    ∃ (er : Fin n → ℝ) (lr : ℝ), lr ≠ 0
      ∧ (∀ c, Ideal.exp ((s c : EReal) - (Finset.univ : Finset (Fin n)).fold max (⊥ : EReal) (fun k => (s k : EReal))) = (er c : EReal))
      ∧ (∑ c : Fin n, Ideal.exp ((s c : EReal) - (Finset.univ : Finset (Fin n)).fold max (⊥ : EReal) (fun k => (s k : EReal)))) = (lr : EReal) := by
  obtain ⟨mr, hm⟩ := fold_max_real (Finset.univ : Finset (Fin n)) ⟨⟨0, hn⟩, Finset.mem_univ _⟩ s
  have he : ∀ c, Ideal.exp ((s c : EReal) - (Finset.univ : Finset (Fin n)).fold max (⊥ : EReal) (fun k => (s k : EReal)))
      = ((Real.exp (s c - mr) : ℝ) : EReal) := by
    intro c
    rw [hm, ← EReal.coe_sub, Ideal.exp_coe]
  refine ⟨fun c => Real.exp (s c - mr), ∑ c : Fin n, Real.exp (s c - mr), ?_, he, ?_⟩
  · have hpos : 0 < ∑ c : Fin n, Real.exp (s c - mr) :=
      Finset.sum_pos (fun c _ => Real.exp_pos _) ⟨⟨0, hn⟩, Finset.mem_univ _⟩
    exact ne_of_gt hpos
  · rw [← coe_sum]
    exact Finset.sum_congr rfl fun c _ => he c

/-- A quotient by a nonzero real is the product with that real's reciprocal `1 / l`. -/
theorem div_eq_mul_recip (e : EReal) {lr : ℝ} (hl : lr ≠ 0) :
    Ideal.div e (lr : EReal) = e * Ideal.div 1 (lr : EReal) := by
  rw [Ideal.div_coe hl, Ideal.div_coe hl, one_mul]

/-- Normalising each weight and then summing against real values is summing against the values and
    normalising once: `∑ (e c / l) · v c = (∑ e c · v c) · (1 / l)` for reals `e c`, `v c` and `l ≠ 0`. -/
theorem sum_div_mul {n : Nat} (er vr : Fin n → ℝ) {lr : ℝ} (hl : lr ≠ 0) :
    (∑ c : Fin n, Ideal.div (er c : EReal) (lr : EReal) * (vr c : EReal))
      = (∑ c : Fin n, (er c : EReal) * (vr c : EReal)) * Ideal.div 1 (lr : EReal) := by
  rw [Ideal.div_coe hl, one_mul]
  have h1 : ∀ c : Fin n, Ideal.div (er c : EReal) (lr : EReal) * (vr c : EReal) = ((er c * (1 / lr) * vr c : ℝ) : EReal) := by
    intro c
    rw [Ideal.div_coe hl, ← EReal.coe_mul, ← EReal.coe_mul]
  have h2 : ∀ c : Fin n, (er c : EReal) * (vr c : EReal) = ((er c * vr c : ℝ) : EReal) := fun c => (EReal.coe_mul _ _).symm
  rw [Finset.sum_congr rfl fun c _ => h1 c, Finset.sum_congr rfl fun c _ => h2 c, coe_sum, coe_sum, ← EReal.coe_mul]
  congr 1
  rw [Finset.sum_mul]
  exact Finset.sum_congr rfl fun c _ => by ring

end Cert.Attn

end
-- ==== Proof.AttnSpec.lean ====
/-
  Scaled-dot-product attention for ONE query row, on the extended reals, and the two arrays it fills.

  For a query row `Q` (64 features), keys `K` and values `V` (2048 rows of 64 features):
    score c   = (∑ d, Q d · K c d) · (1/8)
    rowMax    = the maximum of the scores, folded from -∞
    expo c    = exp (score c − rowMax)
    rowSum    = ∑ c, expo c
    probRow c = expo c · (1 / rowSum)                    -- the attention weights
    outRow d  = (∑ c, expo c · V c d) · (1 / rowSum)     -- the attended values
  This is the order in which the kernel computes (one reciprocal per row, applied after the sums).
  The textbook order — each weight `expo c / rowSum`, then `∑ c, weight c · V c d` — gives the same
  extended reals when the row's entries are real: `div_expo_rowSum`, `sum_div_expo_mul`.

  `attnProbs q k` and `attnOut q k v` are the [2,16,2048,2048] and [2,16,2048,64] arrays whose entry at
  (b, h, r, ·) is the row function of row r of q[b,h] against k[b,h] and v[b,h].
-/
import Idealize.ShloMosaic.Lib.ValueIdx
import proofs.«412519_j18193481466322_3_alg».proof.Proof.SoftmaxLaws

noncomputable section

namespace Cert.Attn

open Idealize.ShloMosaic Idealize.ShloMosaic.ValueIdx

/-! ## One row -/

def score (Q : Fin 64 → EReal) (K : Fin 2048 → Fin 64 → EReal) (c : Fin 2048) : EReal :=
  (∑ d : Fin 64, Q d * K c d) * Ideal.ofBits .f32 0x3E000000#32

def rowMax (Q : Fin 64 → EReal) (K : Fin 2048 → Fin 64 → EReal) : EReal :=
  (Finset.univ : Finset (Fin 2048)).fold max (⊥ : EReal) (fun c => score Q K c)

def expo (Q : Fin 64 → EReal) (K : Fin 2048 → Fin 64 → EReal) (c : Fin 2048) : EReal :=
  Ideal.exp (score Q K c - rowMax Q K)

def rowSum (Q : Fin 64 → EReal) (K : Fin 2048 → Fin 64 → EReal) : EReal :=
  ∑ c : Fin 2048, expo Q K c

def probRow (Q : Fin 64 → EReal) (K : Fin 2048 → Fin 64 → EReal) (c : Fin 2048) : EReal :=
  expo Q K c * Ideal.div 1 (rowSum Q K)

def outRow (Q : Fin 64 → EReal) (K V : Fin 2048 → Fin 64 → EReal) (d : Fin 64) : EReal :=
  (∑ c : Fin 2048, expo Q K c * V c d) * Ideal.div 1 (rowSum Q K)

/-! ## Real rows -/

/-- The scores of real rows are real. -/
theorem score_real {Q : Fin 64 → EReal} {K : Fin 2048 → Fin 64 → EReal}
    (hQ : ∀ d, ∃ r : ℝ, Q d = (r : EReal)) (hK : ∀ c d, ∃ r : ℝ, K c d = (r : EReal)) :
    ∃ s : Fin 2048 → ℝ, ∀ c, score Q K c = (s c : EReal) := by
  choose qr hqr using hQ
  choose kr hkr using hK
  refine ⟨fun c => (∑ d : Fin 64, qr d * kr c d) * (1 / 8), fun c => ?_⟩
  unfold score
  rw [ofBits_eighth, EReal.coe_mul, ← coe_sum]
  congr 1
  exact Finset.sum_congr rfl fun d _ => by rw [hqr d, hkr c d, EReal.coe_mul]

/-- For real rows the shifted exponentials are real and the row sum is a nonzero real. -/
theorem expo_rowSum_real {Q : Fin 64 → EReal} {K : Fin 2048 → Fin 64 → EReal}
    (hQ : ∀ d, ∃ r : ℝ, Q d = (r : EReal)) (hK : ∀ c d, ∃ r : ℝ, K c d = (r : EReal)) :
    ∃ (er : Fin 2048 → ℝ) (lr : ℝ), lr ≠ 0 ∧ (∀ c, expo Q K c = (er c : EReal)) ∧ rowSum Q K = (lr : EReal) := by
  obtain ⟨s, hs⟩ := score_real hQ hK
  obtain ⟨er, lr, hl, he, hsum⟩ := softmax_reals (n := 2048) (by norm_num) s
  have hm : rowMax Q K = (Finset.univ : Finset (Fin 2048)).fold max (⊥ : EReal) (fun k => (s k : EReal)) := by
    unfold rowMax
    exact congrArg (fun f => Finset.fold max (⊥ : EReal) f (Finset.univ : Finset (Fin 2048))) (funext hs)
  have he' : ∀ c, expo Q K c = (er c : EReal) := fun c => by
    unfold expo
    rw [hs c, hm]
    exact he c
  refine ⟨er, lr, hl, he', ?_⟩
  unfold rowSum
  rw [Finset.sum_congr rfl fun c _ => he' c, ← hsum]
  exact Finset.sum_congr rfl fun c _ => (he c).symm

/-- Each weight as a quotient is the weight as a product with the row's reciprocal. -/
theorem div_expo_rowSum {Q : Fin 64 → EReal} {K : Fin 2048 → Fin 64 → EReal}
    (hQ : ∀ d, ∃ r : ℝ, Q d = (r : EReal)) (hK : ∀ c d, ∃ r : ℝ, K c d = (r : EReal)) (c : Fin 2048) :
    Ideal.div (expo Q K c) (rowSum Q K) = probRow Q K c := by
  obtain ⟨er, lr, hl, _, hsum⟩ := expo_rowSum_real hQ hK
  unfold probRow
  rw [hsum]
  exact div_eq_mul_recip _ hl

/-- Summing the normalised weights against real values is normalising the sum against the values. -/
theorem sum_div_expo_mul {Q : Fin 64 → EReal} {K V : Fin 2048 → Fin 64 → EReal}
    (hQ : ∀ d, ∃ r : ℝ, Q d = (r : EReal)) (hK : ∀ c d, ∃ r : ℝ, K c d = (r : EReal))
    (hV : ∀ c d, ∃ r : ℝ, V c d = (r : EReal)) (d : Fin 64) :
    (∑ c : Fin 2048, Ideal.div (expo Q K c) (rowSum Q K) * V c d) = outRow Q K V d := by
  obtain ⟨er, lr, hl, he, hsum⟩ := expo_rowSum_real hQ hK
  choose vr hvr using hV
  unfold outRow
  have h1 : (∑ c : Fin 2048, Ideal.div (expo Q K c) (rowSum Q K) * V c d)
      = ∑ c : Fin 2048, Ideal.div (er c : EReal) (lr : EReal) * ((vr c d : ℝ) : EReal) :=
    Finset.sum_congr rfl fun c _ => by rw [he c, hsum, hvr c d]
  have h2 : (∑ c : Fin 2048, expo Q K c * V c d) = ∑ c : Fin 2048, (er c : EReal) * ((vr c d : ℝ) : EReal) :=
    Finset.sum_congr rfl fun c _ => by rw [he c, hvr c d]
  rw [h1, h2, hsum]
  exact sum_div_mul er (fun c => vr c d) hl

/-! ## The two arrays -/

abbrev Sqkv : Shape := ⟨4, ![2, 16, 2048, 64]⟩
abbrev Sprob : Shape := ⟨4, ![2, 16, 2048, 2048]⟩

/-- Row `r` of the [2048, 64] matrix at batch `b`, head `h`. -/
abbrev rowOf (x : Sqkv.Idx → EReal) (b : Fin 2) (h : Fin 16) (r : Fin 2048) : Fin 64 → EReal :=
  fun d => x (ix4 b h r d)

/-- The [2048, 64] matrix at batch `b`, head `h`. -/
abbrev matOf (x : Sqkv.Idx → EReal) (b : Fin 2) (h : Fin 16) : Fin 2048 → Fin 64 → EReal :=
  fun c d => x (ix4 b h c d)

/-- The attention weights: entry (b, h, r, c) is weight `c` of row `r` of q[b,h] against k[b,h]. -/
def attnProbs (q k : Sqkv.Idx → EReal) : Sprob.Idx → EReal :=
  fun i => probRow (rowOf q (i 0) (i 1) (i 2)) (matOf k (i 0) (i 1)) (i 3)

/-- The attended values: entry (b, h, r, d) is feature `d` of row `r` of q[b,h] against k[b,h] and v[b,h]. -/
def attnOut (q k v : Sqkv.Idx → EReal) : Sqkv.Idx → EReal :=
  fun i => outRow (rowOf q (i 0) (i 1) (i 2)) (matOf k (i 0) (i 1)) (matOf v (i 0) (i 1)) (i 3)

end Cert.Attn

end
-- ==== Proof.KernelRows.lean ====
/-
  The kernel body's values at one grid point, read at an index, at the ideal instance.

  The body loads a block `P0` of 512 query rows and the blocks `P1`, `P2` of all 2048 key and value rows
  of one (batch, head). Written here, entry by entry:
    * the layout operations: a [1,1,n,64] block read as an [n,64] matrix, a vector of 512 row values made a
      column and spread over 2048 or 64 lanes;
    * the two matrix products as sums over the contracted axis: Q·Kᵀ over the 64 features, weights·V over
      the 2048 keys;
    * the row maximum as a fold of `max` from -∞ and the row sum as a sum over the 2048 columns;
  and from them the three computed values of the body as the row functions of Proof/AttnSpec.lean:
  the shifted exponentials (`expK_apply`), the reciprocal of their row sum (`recipK_apply`), and the
  normalised product with the values (`outK_apply`).
-/
import proofs.«412519_j18193481466322_3_alg».proof.Proof.Gen.KernelIdeal.Value
import proofs.«412519_j18193481466322_3_alg».proof.Proof.AttnSpec
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx Cert.Attn

/-! ## Layout operations read at an index -/

section Layout
variable {α : Type}

/-- A [1,1,512,64] block read as a [512,64] matrix: entry (r, d) is the block's (0, 0, r, d). -/
theorem cast_q_apply (x : S1x1x512x64.Idx → α) (h : S1x1x512x64.ShapeCasts S512x64) (r : Fin 512) (d : Fin 64) :
    shapeCast S512x64 x h (ix2 r d) = x (ix4 (0 : Fin 1) (0 : Fin 1) r d) := by
  refine shapeCast_apply x h (ix2 r d) (ix4 (0 : Fin 1) (0 : Fin 1) r d) ?_
  rw [Shape.rowMajor_val_two, Shape.rowMajor_val_four]
  show (((0 : Nat) * 1 + 0) * 512 + r.val) * 64 + d.val = r.val * 64 + d.val
  omega

/-- A [1,1,2048,64] block read as a [2048,64] matrix. -/
theorem cast_kv_apply (x : S1x1x2048x64.Idx → α) (h : S1x1x2048x64.ShapeCasts S2048x64) (c : Fin 2048) (d : Fin 64) :
    shapeCast S2048x64 x h (ix2 c d) = x (ix4 (0 : Fin 1) (0 : Fin 1) c d) := by
  refine shapeCast_apply x h (ix2 c d) (ix4 (0 : Fin 1) (0 : Fin 1) c d) ?_
  rw [Shape.rowMajor_val_two, Shape.rowMajor_val_four]
  show (((0 : Nat) * 1 + 0) * 2048 + c.val) * 64 + d.val = c.val * 64 + d.val
  omega

/-- A vector of 512 row values made a column: entry (r, 0) is value r. -/
theorem col_apply (z : S512.Idx → α) (h : S512.ShapeCasts S512x1) (r : Fin 512) :
    shapeCast S512x1 z h (ix2 r (0 : Fin 1)) = z (ix1 r) := by
  refine shapeCast_apply z h (ix2 r (0 : Fin 1)) (ix1 r) ?_
  rw [Shape.rowMajor_val_one, Shape.rowMajor_val_two]
  show r.val = r.val * 1 + 0
  omega

/-- A column spread over 2048 lanes: entry (r, c) is the column's (r, 0). -/
theorem spread2048_apply (y : S512x1.Idx → α) (h : S512x1.Broadcasts S512x2048) (r : Fin 512) (c : Fin 2048) :
    broadcastTo S512x2048 y h (ix2 r c) = y (ix2 r (0 : Fin 1)) :=
  broadcastTo_apply y h (ix2 r c) (ix2 r (0 : Fin 1)) fun a => match a with
    | ⟨0, _⟩ => by show r.val = if (512 : Nat) = 1 then 0 else r.val; rw [if_neg (by decide)]
    | ⟨1, _⟩ => by show 0 = if (1 : Nat) = 1 then 0 else c.val; rw [if_pos rfl]

/-- A column spread over 64 lanes: entry (r, d) is the column's (r, 0). -/
theorem spread64_apply (y : S512x1.Idx → α) (h : S512x1.Broadcasts S512x64) (r : Fin 512) (d : Fin 64) :
    broadcastTo S512x64 y h (ix2 r d) = y (ix2 r (0 : Fin 1)) :=
  broadcastTo_apply y h (ix2 r d) (ix2 r (0 : Fin 1)) fun a => match a with
    | ⟨0, _⟩ => by show r.val = if (512 : Nat) = 1 then 0 else r.val; rw [if_neg (by decide)]
    | ⟨1, _⟩ => by show 0 = if (1 : Nat) = 1 then 0 else d.val; rw [if_pos rfl]

end Layout

/-! ## The two reductions over the 2048 columns -/

/-- The row maximum: the fold of `max` from -∞ over the row's 2048 entries. -/
theorem rowmax_apply (s : FVec Ideal S512x2048 .f32) (h : S512x2048.Reduces [1] S512) (hφ : FKind.Formats .f32)
    (hacc : (0xFF800000#32 : BitVec 32) = 0xFF800000#32) (r : Fin 512) :
    multiReduction .maximumf [1] S512 s 0xFF800000#32 h hφ hacc (ix1 r)
      = (Finset.univ : Finset (Fin 2048)).fold max (⊥ : EReal) (fun c => s (ix2 r c)) := by
  refine (Ideal.multiReduction_maximumf_single s 0xFF800000#32 h hφ hacc (ix1 r)).trans ?_
  have hf : (s ∘ h.lift (ix1 r)) = fun c : Fin 2048 => s (ix2 r c) :=
    funext fun c => congrArg s (funext fun a => Fin.ext (by match a with | ⟨0, _⟩ => rfl | ⟨1, _⟩ => rfl))
  rw [hf]
  show Finset.fold max (Ideal.ofBits .f32 0xFF800000#32) _ _ = _
  rw [ofBits_neg_inf]
  rfl

/-- The row sum: the sum of the row's 2048 entries. -/
theorem rowsum_apply (s : FVec Ideal S512x2048 .f32) (h : S512x2048.Reduces [1] S512) (hφ : FKind.Formats .f32)
    (hacc : (0x00000000#32 : BitVec 32) = 0x00000000#32) (r : Fin 512) :
    multiReduction .add [1] S512 s 0x00000000#32 h hφ hacc (ix1 r) = ∑ c : Fin 2048, s (ix2 r c) := by
  refine (Ideal.multiReduction_add_single s 0x00000000#32 h hφ hacc (ix1 r)).trans ?_
  exact Finset.sum_congr rfl fun c _ =>
    congrArg s (funext fun a => Fin.ext (by match a with | ⟨0, _⟩ => rfl | ⟨1, _⟩ => rfl))

/-! ## The two matrix products -/

theorem qk_lhs_0 (i : S512x2048.Idx) (q : dot_S512x64_S2048x64_S512x2048_1_1_0_0_n_n.contr.Idx) : (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs_1 (i : S512x2048.Idx) (q : dot_S512x64_S2048x64_S512x2048_1_1_0_0_n_n.contr.Idx) : (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs_0 (i : S512x2048.Idx) (q : dot_S512x64_S2048x64_S512x2048_1_1_0_0_n_n.contr.Idx) : (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs_1 (i : S512x2048.Idx) (q : dot_S512x64_S2048x64_S512x2048_1_1_0_0_n_n.contr.Idx) : (dot_S512x64_S2048x64_S512x2048_1_1_0_0_n_n.rhsIdx i q 1).val = (q ⟨0, by decide⟩).val :=
  dot_S512x64_S2048x64_S512x2048_1_1_0_0_n_n.rhsIdx_val_of_single rfl i q

/-- Q·Kᵀ into a zero accumulator: entry (r, c) is the sum over the 64 features of Q (r, d) · K (c, d). -/
theorem qk_apply (A : FVec Ideal S512x64 .bf16) (B : FVec Ideal S2048x64 .bf16) (r : Fin 512) (c : Fin 2048) :
    matmul dot_S512x64_S2048x64_S512x2048_1_1_0_0_n_n none A B (constant S512x2048 .f32 0x00000000#32) (ix2 r c) = ∑ d : Fin 64, A (ix2 r d) * B (ix2 c d) := by
  refine (Ideal.matmul_constant_zero_apply dot_S512x64_S2048x64_S512x2048_1_1_0_0_n_n none A B (ix2 r c)).trans ?_
  rw [← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r c) ((contrEquiv1 dot_S512x64_S2048x64_S512x2048_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S512x64_S2048x64_S512x2048_1_1_0_0_n_n.rhsIdx (ix2 r c) ((contrEquiv1 dot_S512x64_S2048x64_S512x2048_1_1_0_0_n_n 64 rfl rfl).symm k) = ix2 c k := funext fun a => Fin.ext (by
    match a with
    | ⟨0, _⟩ => exact qk_rhs_0 _ _
    | ⟨1, _⟩ => exact (qk_rhs_1 _ _).trans hk)
  rw [el, er]

theorem pv_lhs_0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs_0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs_1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights·V into a zero accumulator: entry (r, d) is the sum over the 2048 keys of W (r, c) · V (c, d). -/
theorem pv_apply (W : FVec Ideal S512x2048 .bf16) (B : FVec Ideal S2048x64 .bf16) (r : Fin 512) (d : Fin 64) :
    matmul dot_S512x2048_S2048x64_S512x64_1_0_0_1_n_n none W B (constant S512x64 .f32 0x00000000#32) (ix2 r d) = ∑ c : Fin 2048, W (ix2 r c) * B (ix2 c d) := by
  refine (Ideal.matmul_constant_zero_apply dot_S512x2048_S2048x64_S512x64_1_0_0_1_n_n none W B (ix2 r d)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact pv_lhs_0 _ _
    | ⟨1, _⟩ => exact (pv_lhs_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (pv_rhs_0 _ _).trans hk
    | ⟨1, _⟩ => exact pv_rhs_1 _ _)
  rw [el, er]

/-! ## The body's computed values as the row functions -/

/-- Row `r` of a block of 512 query rows. -/
abbrev qRow (P0 : Vec Ideal S1x1x512x64 .f32) (r : Fin 512) : Fin 64 → EReal :=
  fun d => P0 (ix4 (0 : Fin 1) (0 : Fin 1) r d)

/-- A block of 2048 key or value rows as a matrix. -/
abbrev kvMat (P : Vec Ideal S1x1x2048x64 .f32) : Fin 2048 → Fin 64 → EReal :=
  fun c d => P (ix4 (0 : Fin 1) (0 : Fin 1) c d)

/-- The body's scaled scores: Q·Kᵀ times 1/8. -/
abbrev scoresK (P0 : Vec Ideal S1x1x512x64 .f32) (P1 : Vec Ideal S1x1x2048x64 .f32) : FVec Ideal S512x2048 .f32 :=
  mulf (matmul dot_S512x64_S2048x64_S512x2048_1_1_0_0_n_n none (truncf .bf16 (shapeCast S512x64 P0 shapeCasts_S1x1x512x64_S512x64) bitsLt_bf16_f32)
      (truncf .bf16 (shapeCast S2048x64 P1 shapeCasts_S1x1x2048x64_S2048x64) bitsLt_bf16_f32) (constant S512x2048 .f32 0x00000000#32))
    (broadcast S512x2048 (Scalar.ofBits .f32 0x3E000000#32))

/-- The scaled score at (r, c) is the row function's score of row r against key c. -/
theorem scoresK_apply (P0 : Vec Ideal S1x1x512x64 .f32) (P1 : Vec Ideal S1x1x2048x64 .f32) (r : Fin 512) (c : Fin 2048) :
    scoresK P0 P1 (ix2 r c) = score (qRow P0 r) (kvMat P1) c := by
  unfold score
  refine congrArg (· * Ideal.ofBits .f32 0x3E000000#32) ?_
  refine (qk_apply _ _ r c).trans (Finset.sum_congr rfl fun d _ => ?_)
  show shapeCast S512x64 P0 _ (ix2 r d) * shapeCast S2048x64 P1 _ (ix2 c d) = _
  rw [cast_q_apply, cast_kv_apply]

/-- The first computed value: the exponential of the scaled scores less their row maximum. -/
theorem pay2_eq (P0 : Vec Ideal S1x1x512x64 .f32) (P1 : Vec Ideal S1x1x2048x64 .f32) :
    k0_pay2 (F := Ideal) P0 P1 = exp (subf (scoresK P0 P1) (broadcastTo S512x2048 (shapeCast S512x1
      (multiReduction .maximumf [1] S512 (scoresK P0 P1) 0xFF800000#32 reduces_S512x2048_S512 (.inl rfl) rfl)
      shapeCasts_S512_S512x1) broadcasts_S512x1_S512x2048)) := rfl

theorem expK_apply (P0 : Vec Ideal S1x1x512x64 .f32) (P1 : Vec Ideal S1x1x2048x64 .f32) (r : Fin 512) (c : Fin 2048) :
    k0_pay2 (F := Ideal) P0 P1 (ix2 r c) = expo (qRow P0 r) (kvMat P1) c := by
  have hm : broadcastTo S512x2048 (shapeCast S512x1
      (multiReduction .maximumf [1] S512 (scoresK P0 P1) 0xFF800000#32 reduces_S512x2048_S512 (.inl rfl) rfl)
      shapeCasts_S512_S512x1) broadcasts_S512x1_S512x2048 (ix2 r c) = rowMax (qRow P0 r) (kvMat P1) :=
    (spread2048_apply _ _ r c).trans ((col_apply _ _ r).trans ((rowmax_apply _ _ _ _ r).trans
      (congrArg (fun f => Finset.fold max (⊥ : EReal) f (Finset.univ : Finset (Fin 2048)))
        (funext fun c' => scoresK_apply P0 P1 r c'))))
  rw [pay2_eq]
  unfold expo
  exact congrArg₂ (fun a b : EReal => Ideal.exp (a - b)) (scoresK_apply P0 P1 r c) hm

/-- The second computed value: one over the row sum of the exponentials, as a column. -/
theorem pay3_eq (P0 : Vec Ideal S1x1x512x64 .f32) (P1 : Vec Ideal S1x1x2048x64 .f32) :
    k0_pay3 (F := Ideal) P0 P1 = divf (broadcast S512x1 (Scalar.ofBits .f32 0x3F800000#32)) (shapeCast S512x1
      (multiReduction .add [1] S512 (k0_pay2 P0 P1) 0x00000000#32 reduces_S512x2048_S512 (.inl rfl) rfl) shapeCasts_S512_S512x1) := rfl

/-- The row sum of the exponentials is the row function's. -/
theorem rowsumK_apply (P0 : Vec Ideal S1x1x512x64 .f32) (P1 : Vec Ideal S1x1x2048x64 .f32) (r : Fin 512) :
    multiReduction .add [1] S512 (k0_pay2 (F := Ideal) P0 P1) 0x00000000#32 reduces_S512x2048_S512 (.inl rfl) rfl (ix1 r)
      = rowSum (qRow P0 r) (kvMat P1) := by
  refine (rowsum_apply _ _ _ _ r).trans ?_
  unfold rowSum
  exact Finset.sum_congr rfl fun c _ => expK_apply P0 P1 r c

theorem recipK_apply (P0 : Vec Ideal S1x1x512x64 .f32) (P1 : Vec Ideal S1x1x2048x64 .f32) (r : Fin 512) :
    k0_pay3 (F := Ideal) P0 P1 (ix2 r (0 : Fin 1)) = Ideal.div 1 (rowSum (qRow P0 r) (kvMat P1)) := by
  rw [pay3_eq]
  show Ideal.div (Ideal.ofBits .f32 0x3F800000#32) (shapeCast S512x1 _ _ (ix2 r (0 : Fin 1))) = _
  rw [ofBits_one]
  exact congrArg (Ideal.div 1) ((col_apply _ _ r).trans (rowsumK_apply P0 P1 r))

/-- The third computed value: the exponentials times V, each row scaled by its reciprocal. -/
theorem pay4_eq (P0 : Vec Ideal S1x1x512x64 .f32) (P1 P2 : Vec Ideal S1x1x2048x64 .f32) :
    k0_pay4 (F := Ideal) P0 P1 P2 = mulf (matmul dot_S512x2048_S2048x64_S512x64_1_0_0_1_n_n none (truncf .bf16 (k0_pay2 P0 P1) bitsLt_bf16_f32)
        (truncf .bf16 (shapeCast S2048x64 P2 shapeCasts_S1x1x2048x64_S2048x64) bitsLt_bf16_f32) (constant S512x64 .f32 0x00000000#32))
      (broadcastTo S512x64 (k0_pay3 P0 P1) broadcasts_S512x1_S512x64) := rfl

theorem outK_apply (P0 : Vec Ideal S1x1x512x64 .f32) (P1 P2 : Vec Ideal S1x1x2048x64 .f32) (r : Fin 512) (d : Fin 64) :
    k0_pay4 (F := Ideal) P0 P1 P2 (ix2 r d) = outRow (qRow P0 r) (kvMat P1) (kvMat P2) d := by
  have hs : (matmul dot_S512x2048_S2048x64_S512x64_1_0_0_1_n_n none (truncf .bf16 (k0_pay2 (F := Ideal) P0 P1) bitsLt_bf16_f32)
      (truncf .bf16 (shapeCast S2048x64 P2 shapeCasts_S1x1x2048x64_S2048x64) bitsLt_bf16_f32) (constant S512x64 .f32 0x00000000#32)) (ix2 r d)
      = ∑ c : Fin 2048, expo (qRow P0 r) (kvMat P1) c * kvMat P2 c d := by
    refine (pv_apply _ _ r d).trans (Finset.sum_congr rfl fun c _ => ?_)
    show k0_pay2 P0 P1 (ix2 r c) * shapeCast S2048x64 P2 _ (ix2 c d) = _
    rw [expK_apply, cast_kv_apply]
  have hr : broadcastTo S512x64 (k0_pay3 (F := Ideal) P0 P1) broadcasts_S512x1_S512x64 (ix2 r d)
      = Ideal.div 1 (rowSum (qRow P0 r) (kvMat P1)) :=
    (spread64_apply _ _ r d).trans (recipK_apply P0 P1 r)
  rw [pay4_eq]
  unfold outRow
  exact congrArg₂ (fun a b : EReal => a * b) hs hr

/-! ## The two output blocks, entry by entry -/

/-- The weights' block: entry (0, 0, r, c) is weight c of the block's query row r. -/
theorem probsBlock_apply (P0 : Vec Ideal S1x1x512x64 .f32) (P1 : Vec Ideal S1x1x2048x64 .f32) (y : S1x1x512x2048.Idx) :
    Cert.KernelIdeal.Value.E4 (F := Ideal) P0 P1 y = probRow (qRow P0 (y 2)) (kvMat P1) (y 3) := by
  have e0 : Cert.KernelIdeal.Value.ix4_0 y = ix2 (y 2) (y 3) :=
    funext fun a => Fin.ext (by match a with | ⟨0, _⟩ => rfl | ⟨1, _⟩ => rfl)
  have e1 : Cert.KernelIdeal.Value.ix4_1 y = ix1 (y 2) :=
    funext fun a => Fin.ext (by match a with | ⟨0, _⟩ => rfl)
  have ha : k0_pay2 (F := Ideal) P0 P1 (Cert.KernelIdeal.Value.ix4_0 y) = expo (qRow P0 (y 2)) (kvMat P1) (y 3) := by
    rw [e0]; exact expK_apply P0 P1 (y 2) (y 3)
  have hb : Ideal.div (Ideal.ofBits .f32 0x3F800000#32)
      (multiReduction .add [1] S512 (k0_pay2 (F := Ideal) P0 P1) 0x00000000#32 reduces_S512x2048_S512 (.inl rfl) rfl (Cert.KernelIdeal.Value.ix4_1 y))
      = Ideal.div 1 (rowSum (qRow P0 (y 2)) (kvMat P1)) := by
    rw [e1, ofBits_one]; exact congrArg (Ideal.div 1) (rowsumK_apply P0 P1 (y 2))
  unfold probRow
  exact congrArg₂ (fun a b : EReal => a * b) ha hb

/-- The output's block: entry (0, 0, r, d) is feature d of the attended values of the block's query row r. -/
theorem outBlock_apply (P0 : Vec Ideal S1x1x512x64 .f32) (P1 P2 : Vec Ideal S1x1x2048x64 .f32) (y : S1x1x512x64.Idx) :
    Cert.KernelIdeal.Value.E3 (F := Ideal) P0 P1 P2 y = outRow (qRow P0 (y 2)) (kvMat P1) (kvMat P2) (y 3) := by
  have e0 : Cert.KernelIdeal.Value.ix3_0 y = ix2 (y 2) (y 3) :=
    funext fun a => Fin.ext (by match a with | ⟨0, _⟩ => rfl | ⟨1, _⟩ => rfl)
  show k0_pay4 (F := Ideal) P0 P1 P2 (Cert.KernelIdeal.Value.ix3_0 y) = _
  rw [e0]
  exact outK_apply P0 P1 P2 (y 2) (y 3)

end Cert.KernelIdeal.Rows

end
-- ==== Proof.KernelArrays.lean ====
/-
  From one grid point's blocks to the whole result arrays, at the ideal instance.

  The grid has 2·16·4 points (batch b, head h, query tile g). At point (b, h, g) the kernel's windows hold
    q's rows 512g … 512g+511 of (b, h),   all 2048 rows of k and of v at (b, h),
  and it writes back rows 512g … 512g+511 of (b, h) of the output and of the weights. So an entry of a block,
  read through the window, is the entry of the argument array at the block's place (`qblk_row`, `kblk_row`,
  `vblk_row`); what a point writes back is its block of the attention arrays of Proof/AttnSpec.lean
  (`flushedOut_eq`, `flushedProbs_eq`); the 128 blocks tile each result array (`coverOut`, `coverProbs`);
  hence the arrays after the run (`finalOut`, `finalProbs`) and the run itself (`run`).
-/
import proofs.«412519_j18193481466322_3_alg».proof.Proof.Gen.KernelIdeal.Value
import proofs.«412519_j18193481466322_3_alg».proof.Proof.KernelRows
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Rows Idealize.ShloMosaic.ValueIdx Cert.Attn

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The blocks and arrays by name -/

abbrev qblk (c : Dev nD) (t : Fin cfg0.N) : Vec Ideal S1x1x512x64 .f32 := iblk m c 0 t
abbrev kblk (c : Dev nD) (t : Fin cfg0.N) : Vec Ideal S1x1x2048x64 .f32 := iblk m c 1 t
abbrev vblk (c : Dev nD) (t : Fin cfg0.N) : Vec Ideal S1x1x2048x64 .f32 := iblk m c 2 t
abbrev qarr (c : Dev nD) : Sqkv.Idx → EReal := m ((c : Thread nD τ).loc main_arg0)
abbrev karr (c : Dev nD) : Sqkv.Idx → EReal := m ((c : Thread nD τ).loc main_arg1)
abbrev varr (c : Dev nD) : Sqkv.Idx → EReal := m ((c : Thread nD τ).loc main_arg2)

/-! ## The index maps over the grid -/

/-- The five windows' block indices at a point: q, the output and the weights move together over
    (batch, head, query tile); k and v over (batch, head) only; every feature and key axis is whole. -/
theorem idx_facts : ∀ t : Fin cfg0.N,
    (win0_0.index t (0 : Fin 4) = win0_4.index t (0 : Fin 4) ∧ win0_0.index t (1 : Fin 4) = win0_4.index t (1 : Fin 4)
      ∧ win0_0.index t (2 : Fin 4) = win0_4.index t (2 : Fin 4) ∧ win0_0.index t (3 : Fin 4) = 0)
    ∧ (win0_1.index t (0 : Fin 4) = win0_4.index t (0 : Fin 4) ∧ win0_1.index t (1 : Fin 4) = win0_4.index t (1 : Fin 4)
      ∧ win0_1.index t (2 : Fin 4) = 0 ∧ win0_1.index t (3 : Fin 4) = 0)
    ∧ (win0_2.index t (0 : Fin 4) = win0_4.index t (0 : Fin 4) ∧ win0_2.index t (1 : Fin 4) = win0_4.index t (1 : Fin 4)
      ∧ win0_2.index t (2 : Fin 4) = 0 ∧ win0_2.index t (3 : Fin 4) = 0)
    ∧ (win0_3.index t (0 : Fin 4) = win0_4.index t (0 : Fin 4) ∧ win0_3.index t (1 : Fin 4) = win0_4.index t (1 : Fin 4)
      ∧ win0_3.index t (2 : Fin 4) = win0_4.index t (2 : Fin 4) ∧ win0_3.index t (3 : Fin 4) = 0)
    ∧ (win0_4.index t (0 : Fin 4) ≤ 1 ∧ win0_4.index t (1 : Fin 4) ≤ 15 ∧ win0_4.index t (2 : Fin 4) ≤ 3
      ∧ win0_4.index t (3 : Fin 4) = 0) :=
  (by decide +kernel : ∀ t : Fin grid0.N, _)

/-- Every (batch, head, query tile) is some point's. -/
theorem idx_onto : ∀ (b : Fin 2) (h : Fin 16) (g : Fin 4), ∃ t : Fin cfg0.N, win0_4.index t = ![b.val, h.val, g.val, 0] :=
  (by decide +kernel : ∀ (b : Fin 2) (h : Fin 16) (g : Fin 4), ∃ t : Fin grid0.N, win0_4.index t = ![b.val, h.val, g.val, 0])

/-! ## A block's entry is the argument's entry at the block's place -/

theorem qblk_row (c : Dev nD) (t : Fin cfg0.N) (r : Fin 512) (d : Fin 64) (b : Fin 2) (h : Fin 16) (R : Fin 2048)
    (hb : b.val = win0_4.index t (0 : Fin 4)) (hh : h.val = win0_4.index t (1 : Fin 4))
    (hR : R.val = win0_4.index t (2 : Fin 4) * 512 + r.val) :
    qblk m c t (ix4 (0 : Fin 1) (0 : Fin 1) r d) = qarr m c (ix4 b h R d) := by
  obtain ⟨⟨e0, e1, e2, e3⟩, -, -, -, -⟩ := idx_facts t
  unfold qblk iblk
  rw [View.read_apply]
  show V m c main_arg0 _ = m (c.tc.loc main_arg0) _
  unfold V
  congr 1
  funext a
  apply Fin.ext
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = R.val; omega
  | ⟨3, _⟩ => show win0_0.index t (3 : Fin 4) * 64 + 1 * d.val = d.val; omega

theorem kblk_row (c : Dev nD) (t : Fin cfg0.N) (k : Fin 2048) (d : Fin 64) (b : Fin 2) (h : Fin 16)
    (hb : b.val = win0_4.index t (0 : Fin 4)) (hh : h.val = win0_4.index t (1 : Fin 4)) :
    kblk m c t (ix4 (0 : Fin 1) (0 : Fin 1) k d) = karr m c (ix4 b h k d) := by
  obtain ⟨-, ⟨e0, e1, e2, e3⟩, -, -, -⟩ := idx_facts t
  unfold kblk iblk
  rw [View.read_apply]
  show V m c main_arg1 _ = m (c.tc.loc main_arg1) _
  unfold V
  congr 1
  funext a
  apply Fin.ext
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * k.val = k.val; omega
  | ⟨3, _⟩ => show win0_1.index t (3 : Fin 4) * 64 + 1 * d.val = d.val; omega

theorem vblk_row (c : Dev nD) (t : Fin cfg0.N) (k : Fin 2048) (d : Fin 64) (b : Fin 2) (h : Fin 16)
    (hb : b.val = win0_4.index t (0 : Fin 4)) (hh : h.val = win0_4.index t (1 : Fin 4)) :
    vblk m c t (ix4 (0 : Fin 1) (0 : Fin 1) k d) = varr m c (ix4 b h k d) := by
  obtain ⟨-, -, ⟨e0, e1, e2, e3⟩, -, -⟩ := idx_facts t
  unfold vblk iblk
  rw [View.read_apply]
  show V m c main_arg2 _ = m (c.tc.loc main_arg2) _
  unfold V
  congr 1
  funext a
  apply Fin.ext
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * k.val = k.val; omega
  | ⟨3, _⟩ => show win0_2.index t (3 : Fin 4) * 64 + 1 * d.val = d.val; omega

/-! ## What a point writes back -/

/-- The weights: entry `j` of the block is the weights array at the block's place. -/
theorem probs_entry (c : Dev nD) (t : Fin cfg0.N) (j : S1x1x512x2048.Idx) :
    probRow (qRow (qblk m c t) (j 2)) (kvMat (kblk m c t)) (j 3)
      = attnProbs (qarr m c) (karr m c) (((cfg0.win 4).blk t).view.emb j) := by
  obtain ⟨-, -, -, -, ⟨-, -, -, f3⟩⟩ := idx_facts t
  have hj0 : (j 0).val < 1 := (j 0).isLt
  have hj1 : (j 1).val < 1 := (j 1).isLt
  have hb : ((((cfg0.win 4).blk t).view.emb j) 0).val = win0_4.index t (0 : Fin 4) := by
    show win0_4.index t (0 : Fin 4) * 1 + 1 * (j 0).val = _; omega
  have hh : ((((cfg0.win 4).blk t).view.emb j) 1).val = win0_4.index t (1 : Fin 4) := by
    show win0_4.index t (1 : Fin 4) * 1 + 1 * (j 1).val = _; omega
  have hR : ((((cfg0.win 4).blk t).view.emb j) 2).val = win0_4.index t (2 : Fin 4) * 512 + (j 2).val := by
    show win0_4.index t (2 : Fin 4) * 512 + 1 * (j 2).val = _; omega
  have h3 : (j 3 : Fin 2048) = (((cfg0.win 4).blk t).view.emb j) 3 := Fin.ext (by
    show (j 3).val = win0_4.index t (3 : Fin 4) * 2048 + 1 * (j 3).val; omega)
  have hq : qRow (qblk m c t) (j 2) = rowOf (qarr m c) ((((cfg0.win 4).blk t).view.emb j) 0) ((((cfg0.win 4).blk t).view.emb j) 1) ((((cfg0.win 4).blk t).view.emb j) 2) :=
    funext fun d => qblk_row m c t (j 2) d _ _ _ hb hh hR
  have hk : kvMat (kblk m c t) = matOf (karr m c) ((((cfg0.win 4).blk t).view.emb j) 0) ((((cfg0.win 4).blk t).view.emb j) 1) :=
    funext fun k => funext fun d => kblk_row m c t k d _ _ hb hh
  unfold attnProbs
  rw [hq, hk, h3]

/-- The output: entry `j` of the block is the output array at the block's place. -/
theorem out_entry (c : Dev nD) (t : Fin cfg0.N) (j : S1x1x512x64.Idx) :
    outRow (qRow (qblk m c t) (j 2)) (kvMat (kblk m c t)) (kvMat (vblk m c t)) (j 3)
      = attnOut (qarr m c) (karr m c) (varr m c) (((cfg0.win 3).blk t).view.emb j) := by
  obtain ⟨-, -, -, ⟨g0, g1, g2, g3⟩, -⟩ := idx_facts t
  have hj0 : (j 0).val < 1 := (j 0).isLt
  have hj1 : (j 1).val < 1 := (j 1).isLt
  have hb : ((((cfg0.win 3).blk t).view.emb j) 0).val = win0_4.index t (0 : Fin 4) := by
    show win0_3.index t (0 : Fin 4) * 1 + 1 * (j 0).val = _; omega
  have hh : ((((cfg0.win 3).blk t).view.emb j) 1).val = win0_4.index t (1 : Fin 4) := by
    show win0_3.index t (1 : Fin 4) * 1 + 1 * (j 1).val = _; omega
  have hR : ((((cfg0.win 3).blk t).view.emb j) 2).val = win0_4.index t (2 : Fin 4) * 512 + (j 2).val := by
    show win0_3.index t (2 : Fin 4) * 512 + 1 * (j 2).val = _; omega
  have h3 : (j 3 : Fin 64) = (((cfg0.win 3).blk t).view.emb j) 3 := Fin.ext (by
    show (j 3).val = win0_3.index t (3 : Fin 4) * 64 + 1 * (j 3).val; omega)
  have hq : qRow (qblk m c t) (j 2) = rowOf (qarr m c) ((((cfg0.win 3).blk t).view.emb j) 0) ((((cfg0.win 3).blk t).view.emb j) 1) ((((cfg0.win 3).blk t).view.emb j) 2) :=
    funext fun d => qblk_row m c t (j 2) d _ _ _ hb hh hR
  have hk : kvMat (kblk m c t) = matOf (karr m c) ((((cfg0.win 3).blk t).view.emb j) 0) ((((cfg0.win 3).blk t).view.emb j) 1) :=
    funext fun k => funext fun d => kblk_row m c t k d _ _ hb hh
  have hv : kvMat (vblk m c t) = matOf (varr m c) ((((cfg0.win 3).blk t).view.emb j) 0) ((((cfg0.win 3).blk t).view.emb j) 1) :=
    funext fun k => funext fun d => vblk_row m c t k d _ _ hb hh
  unfold attnOut
  rw [hq, hk, hv, h3]

/-- What point `t` writes back to the weights' array is its block of the attention weights. -/
theorem flushedProbs_eq (c : Dev nD) (t : Fin cfg0.N) :
    (dats m 0 c).flushed 4 t = ((cfg0.win 4).blk t).view.read (Elt Ideal) (attnProbs (qarr m c) (karr m c)) := by
  rw [Cert.KernelIdeal.Value.flushed4]
  unfold out0_4
  simp only [View.ld_unit_zero (S := S1x1x512x64) hz, View.ld_unit_zero (S := S1x1x2048x64) hz]
  funext j
  show _ = attnProbs (qarr m c) (karr m c) (((cfg0.win 4).blk t).view.emb j)
  refine (Cert.KernelIdeal.Value.canon4_eq (F := Ideal) (qblk m c t) (kblk m c t) j).trans ?_
  rw [probsBlock_apply]
  exact probs_entry m c t j

/-- What point `t` writes back to the output's array is its block of the attended values. -/
theorem flushedOut_eq (c : Dev nD) (t : Fin cfg0.N) :
    (dats m 0 c).flushed 3 t = ((cfg0.win 3).blk t).view.read (Elt Ideal) (attnOut (qarr m c) (karr m c) (varr m c)) := by
  rw [Cert.KernelIdeal.Value.flushed3]
  unfold out0_3
  simp only [View.ld_unit_zero (S := S1x1x512x64) hz, View.ld_unit_zero (S := S1x1x2048x64) hz]
  funext j
  show _ = attnOut (qarr m c) (karr m c) (varr m c) (((cfg0.win 3).blk t).view.emb j)
  refine (Cert.KernelIdeal.Value.canon3_eq (F := Ideal) (qblk m c t) (kblk m c t) (vblk m c t) j).trans ?_
  rw [outBlock_apply]
  exact out_entry m c t j

/-! ## The blocks tile the arrays -/

theorem mem_blkProbs (t : Fin cfg0.N) (i : S2x16x2048x2048.Idx) :
    i ∈ ((cfg0.win 4).blk t).view.set ↔ ∀ a : Fin 4, win0_4.index t a * S1x1x512x2048.size a ≤ (i a).val
      ∧ (i a).val < win0_4.index t a * S1x1x512x2048.size a + S1x1x512x2048.size a := by
  show i ∈ ((View.whole main_v0_1).slice (win0_4.rect t)).set ↔ _
  rw [View.set_slice_whole, Rect.mem_set_unit]
  exact Iff.rfl

theorem mem_blkOut (t : Fin cfg0.N) (i : S2x16x2048x64.Idx) :
    i ∈ ((cfg0.win 3).blk t).view.set ↔ ∀ a : Fin 4, win0_3.index t a * S1x1x512x64.size a ≤ (i a).val
      ∧ (i a).val < win0_3.index t a * S1x1x512x64.size a + S1x1x512x64.size a := by
  show i ∈ ((View.whole main_v0_0).slice (win0_3.rect t)).set ↔ _
  rw [View.set_slice_whole, Rect.mem_set_unit]
  exact Iff.rfl

/-- Row `r` of (b, h) lies in the block of the point (b, h, r / 512). -/
theorem coverProbs (i : S2x16x2048x2048.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blkProbs]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 2048 ≤ (i 3).val ∧ (i 3).val < win0_4.index t (3 : Fin 4) * 2048 + 2048; omega

theorem coverOut (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, ⟨g0, g1, g2, g3⟩, -⟩ := idx_facts t
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  refine ⟨t, flush0_3 t, ?_⟩
  rw [mem_blkOut]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-! ## The arrays after the run, and the run -/

theorem finalProbs (c : Dev nD) : (dats m 0 c).arrAt 4 cfg0.N = attnProbs (qarr m c) (karr m c) :=
  (dats m 0 c).arrAt_eq_of_cover 4 (attnProbs (qarr m c) (karr m c)) (fun t _ => flushedProbs_eq m c t) coverProbs

theorem finalOut (c : Dev nD) : (dats m 0 c).arrAt 3 cfg0.N = attnOut (qarr m c) (karr m c) (varr m c) :=
  (dats m 0 c).arrAt_eq_of_cover 3 (attnOut (qarr m c) (karr m c) (varr m c)) (fun t _ => flushedOut_eq m c t) coverOut

/-- The kernel's run, read: the output array ends at the attended values and the weights' array at the
    attention weights of the argument arrays, which end unchanged. -/
theorem run : θ_run defs (onTc (τ := τ) (main (F := Ideal))) ⟨m, fun _ => 0, ρ⟩ fun r => ∀ c : Dev nD,
      r.2.mem ((c : Thread nD τ).loc main_v0_0) = attnOut (qarr m c) (karr m c) (varr m c)
      ∧ r.2.mem ((c : Thread nD τ).loc main_v0_1) = attnProbs (qarr m c) (karr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalOut m c), (h c).2.1.trans (finalProbs m c), (h c).2.2⟩)
    (Cert.KernelIdeal.Value.run_blocks m ρ)

end Cert.KernelIdeal.Arrays

end
-- ==== Proof.ReferenceRows.lean ====
/-
  The reference, stage by stage, as the row functions of Proof/AttnSpec.lean, at the ideal instance.

  The reference computes, for each (batch b, head h, query row r):
    the scores `(∑ d, q·k) / √64` — dividing by √64 = 8 is multiplying by 1/8 (`score_ref`);
    their maximum, a fold of `max` from -∞, then `max (-∞) ·`, which changes nothing (`rowMax_ref`);
    the shifted exponentials and their sum from 0 (`expo_ref`, `rowSum_ref`);
    each weight as the QUOTIENT `expo c / rowSum` (`quot_ref`), and the output `∑ c, weight c · v`.
  The kernel instead multiplies by ONE reciprocal per row, after the sums. For real inputs the two orders agree
  (`probs_ref`, `out_ref`): the row sum is a nonzero real, and reals distribute.
-/
import proofs.«412519_j18193481466322_3_alg».proof.Proof.Gen.ReferenceIdeal.Read
import proofs.«412519_j18193481466322_3_alg».proof.Proof.AttnSpec
import Idealize.ShloMosaic.Lib.ValueIdx
import Idealize.ShloMosaic.PureOps.Ideal.Laws
import Idealize.ShloMosaic.PureOps.Reduce

noncomputable section

namespace Cert.ReferenceIdeal.Rows

open Cert.ReferenceIdeal Cert.ReferenceIdeal.Gen Cert.ReferenceIdeal.Read Idealize.ShloMosaic Idealize.ShloMosaic.ValueIdx Cert.Attn

variable (q k v : (⟨S2x16x2048x64, .f32⟩ : BufTy).Contents (Elt Ideal))

/-- The scores: the contraction over the 64 features, divided by √64. -/
theorem score_ref (b : Fin 2) (h : Fin 16) (r c : Fin 2048) :
    val_main_v3 (F := Ideal) q k (ix4 b h r c) = score (rowOf q b h r) (matOf k b h) c := by
  rw [val_main_v3_apply, val_main_v0_apply, val_main_v2_apply, val_main_v1_apply, val_main_cst_apply]
  show Ideal.div _ (Ideal.sqrt (Ideal.ofBits .f32 0x42800000#32)) = _
  rw [div_sqrt64]
  unfold score
  refine congrArg (· * Ideal.ofBits .f32 0x3E000000#32) (Finset.sum_congr rfl fun d _ => ?_)
  have el : lidx_main_v0 (ix4 b h r c) d = ix4 b h r d :=
    funext fun a => Fin.ext (by match a with | ⟨0, _⟩ => rfl | ⟨1, _⟩ => rfl | ⟨2, _⟩ => rfl | ⟨3, _⟩ => rfl)
  have er : ridx_main_v0 (ix4 b h r c) d = ix4 b h c d :=
    funext fun a => Fin.ext (by match a with | ⟨0, _⟩ => rfl | ⟨1, _⟩ => rfl | ⟨2, _⟩ => rfl | ⟨3, _⟩ => rfl)
  rw [el, er]

theorem red3 : S2x16x2048x2048.Reduces [3] S2x16x2048 := by decide

/-- The reduced index (b, h, r) with column c put back is (b, h, r, c). -/
theorem lift_eq (b : Fin 2) (h : Fin 16) (r : Fin 2048) (c : Fin (S2x16x2048x2048.size 3)) :
    red3.lift (ix3 b h r) c = ix4 b h r (⟨c.val, c.isLt⟩ : Fin 2048) :=
  funext fun a => Fin.ext (by match a with | ⟨0, _⟩ => rfl | ⟨1, _⟩ => rfl | ⟨2, _⟩ => rfl | ⟨3, _⟩ => rfl)

/-- The row maximum: the host's reduce by `max` from -∞, then `max (-∞) ·`. -/
theorem rowMax_ref (b : Fin 2) (h : Fin 16) (r : Fin 2048) :
    val_main_v6 (F := Ideal) q k (ix3 b h r) = rowMax (rowOf q b h r) (matOf k b h) := by
  rw [val_main_v6_apply, val_main_v5_apply, val_main_cst_1_apply]
  show max (Ideal.ofBits .f32 0xFF800000#32) (val_main_v4 (F := Ideal) q k (ix3 b h r)) = _
  rw [ofBits_neg_inf, max_eq_right bot_le]
  unfold val_main_v4
  refine (Host.reduce_eq_fold_single FloatOps.maximumf _ _ reducesTo_S2x16x2048x2048_S2x16x2048_d3 red3 h_S_ (ix3 b h r)).trans ?_
  show Finset.fold max (Ideal.ofBits .f32 0xFF800000#32) _ _ = _
  rw [ofBits_neg_inf]
  unfold rowMax
  exact congrArg (fun f => Finset.fold max (⊥ : EReal) f (Finset.univ : Finset (Fin 2048))) (funext fun c => by
    show val_main_v3 (F := Ideal) q k (red3.lift (ix3 b h r) c) = _
    rw [lift_eq]
    exact score_ref q k b h r c)

/-- The shifted exponentials. -/
theorem expo_ref (b : Fin 2) (h : Fin 16) (r c : Fin 2048) :
    val_main_v10 (F := Ideal) q k (ix4 b h r c) = expo (rowOf q b h r) (matOf k b h) c := by
  have e7 : idx_main_v7 (idx_main_v8 (ix4 b h r c)) = ix3 b h r :=
    funext fun a => Fin.ext (by match a with | ⟨0, _⟩ => rfl | ⟨1, _⟩ => rfl | ⟨2, _⟩ => rfl)
  rw [val_main_v10_apply, val_main_v9_apply, val_main_v8_apply, val_main_v7_apply, e7, rowMax_ref, score_ref]
  rfl

/-- Their row sum, from 0. -/
theorem rowSum_ref (b : Fin 2) (h : Fin 16) (r : Fin 2048) :
    val_main_v11 (F := Ideal) q k (ix3 b h r) = rowSum (rowOf q b h r) (matOf k b h) := by
  rw [val_main_v11_apply]
  show Ideal.ofBits .f32 0x00000000#32 + _ = _
  rw [Ideal.ofBits_zero_f32, zero_add]
  unfold rowSum
  refine Finset.sum_congr rfl fun c _ => ?_
  have e : idx_main_v11 (ix3 b h r) c = ix4 b h r c :=
    funext fun a => Fin.ext (by match a with | ⟨0, _⟩ => rfl | ⟨1, _⟩ => rfl | ⟨2, _⟩ => rfl | ⟨3, _⟩ => rfl)
  rw [e]
  exact expo_ref q k b h r c

/-- Each weight, as the reference takes it: the exponential over the row sum. -/
theorem quot_ref (b : Fin 2) (h : Fin 16) (r c : Fin 2048) :
    val_main_v14 (F := Ideal) q k (ix4 b h r c)
      = Ideal.div (expo (rowOf q b h r) (matOf k b h) c) (rowSum (rowOf q b h r) (matOf k b h)) := by
  have e : idx_main_v12 (idx_main_v13 (ix4 b h r c)) = ix3 b h r :=
    funext fun a => Fin.ext (by match a with | ⟨0, _⟩ => rfl | ⟨1, _⟩ => rfl | ⟨2, _⟩ => rfl)
  rw [val_main_v14_apply, val_main_v13_apply, val_main_v12_apply, e, rowSum_ref, expo_ref]
  rfl

/-- For real q and k the reference's weights are the attention weights. -/
theorem probs_ref (hq : ∀ i, ∃ x : ℝ, q i = (x : EReal)) (hk : ∀ i, ∃ x : ℝ, k i = (x : EReal)) :
    val_main_v14 (F := Ideal) q k = attnProbs q k := by
  funext i
  obtain ⟨b, h, r, c, rfl⟩ : ∃ (b : Fin 2) (h : Fin 16) (r c : Fin 2048), i = ix4 b h r c := ⟨i 0, i 1, i 2, i 3, eq_ix4 i⟩
  rw [quot_ref]
  exact div_expo_rowSum (Q := rowOf q b h r) (K := matOf k b h) (fun d => hq _) (fun c d => hk _) c

/-- For real q, k and v the reference's output is the attended values. -/
theorem out_ref (hq : ∀ i, ∃ x : ℝ, q i = (x : EReal)) (hk : ∀ i, ∃ x : ℝ, k i = (x : EReal))
    (hv : ∀ i, ∃ x : ℝ, v i = (x : EReal)) :
    val_main_v15 (F := Ideal) q k v = attnOut q k v := by
  funext i
  obtain ⟨b, h, r, d, rfl⟩ : ∃ (b : Fin 2) (h : Fin 16) (r : Fin 2048) (d : Fin 64), i = ix4 b h r d := ⟨i 0, i 1, i 2, i 3, eq_ix4 i⟩
  rw [val_main_v15_apply]
  have hterm : ∀ c : Fin 2048, val_main_v14 (F := Ideal) q k (lidx_main_v15 (ix4 b h r d) c) * v (ridx_main_v15 (ix4 b h r d) c)
      = Ideal.div (expo (rowOf q b h r) (matOf k b h) c) (rowSum (rowOf q b h r) (matOf k b h)) * matOf v b h c d := by
    intro c
    have el : lidx_main_v15 (ix4 b h r d) c = ix4 b h r c :=
      funext fun a => Fin.ext (by match a with | ⟨0, _⟩ => rfl | ⟨1, _⟩ => rfl | ⟨2, _⟩ => rfl | ⟨3, _⟩ => rfl)
    have er : ridx_main_v15 (ix4 b h r d) c = ix4 b h c d :=
      funext fun a => Fin.ext (by match a with | ⟨0, _⟩ => rfl | ⟨1, _⟩ => rfl | ⟨2, _⟩ => rfl | ⟨3, _⟩ => rfl)
    rw [el, er, quot_ref]
  rw [Finset.sum_congr rfl fun c _ => hterm c]
  exact sum_div_expo_mul (Q := rowOf q b h r) (K := matOf k b h) (V := matOf v b h) (fun d => hq _) (fun c d => hk _)
    (fun c d => hv _) d

end Cert.ReferenceIdeal.Rows

end
-- ==== Proof.FiniteInputs.lean ====
/-
  What the precondition says: every entry of q, k and v is a real number.

  The printed predicate is `all (|q| < +∞) ∧ all (|k| < +∞) ∧ all (|v| < +∞)`. Each `all` is a reduction by
  `and` from 1 that came out 1, so every compared entry gave 1; and an extended real whose absolute value
  `max x (−x)` is below +∞ is neither infinity, hence a real.
-/
import proofs.«412519_j18193481466322_3_alg».proof.Pre_finite_inputs
import proofs.«412519_j18193481466322_3_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Attn.Finite

open Idealize.ShloMosaic Cert.Pre_finite_inputs

/-- The pattern of `+inf` denotes the top of the extended reals. -/
theorem ofBits_inf : Ideal.ofBits .f32 0x7F800000#32 = (⊤ : EReal) := by
  simp [Ideal.ofBits, Ideal.ieee]

/-- An extended real whose absolute value compares below +∞ is a real. -/
theorem real_of_abs_lt_top (x : EReal) (h : Ideal.cmp .olt (max x (-x)) (⊤ : EReal) = 1#1) :
    ∃ r : ℝ, x = (r : EReal) := by
  induction x using EReal.rec
  · exact absurd h (by simp [Ideal.cmp])
  · exact ⟨_, rfl⟩
  · exact absurd h (by simp [Ideal.cmp])

instance : Subsingleton S_.Idx := ⟨fun a b => funext fun d => d.elim0⟩

/-- One `all (|x| < +∞)` that came out 1: every entry of `x` is a real. -/
theorem real_of_all (x : FVec Ideal S2x16x2048x64 .f32) (hb : S_.BroadcastsInDim S2x16x2048x64 (![] : Fin 0 → Fin S2x16x2048x64.rank))
    (hr : S2x16x2048x64.ReducesTo [0, 1, 2, 3] S_) (hu : 0 < S_.numel)
    (h : Host.reduce IntOp.andi (cmpf .olt (Host.absf x) (broadcastInDim S2x16x2048x64 ![] hb (constant S_ .f32 0x7F800000#32)))
      (constantI S_ 1 1#1) hr hu ValueIdx.ix0 = 1#1) (i : S2x16x2048x64.Idx) :
    ∃ r : ℝ, x i = (r : EReal) := by
  have e := Host.reduce_andi_all _ _ hr hu ValueIdx.ix0 h i
  have hbc : broadcastInDim S2x16x2048x64 ![] hb (constant (F := Ideal) S_ .f32 0x7F800000#32) i = (⊤ : EReal) := by
    rw [broadcastInDim_apply _ hb _ i ValueIdx.ix0 (fun a => a.elim0)]
    exact ofBits_inf
  have e' : Ideal.cmp .olt (max (x i) (-(x i)))
      (broadcastInDim S2x16x2048x64 ![] hb (constant (F := Ideal) S_ .f32 0x7F800000#32) i) = 1#1 := e
  rw [hbc] at e'
  exact real_of_abs_lt_top (x i) e'

/-- The precondition, read: q, k and v hold reals. -/
theorem reals_of_pre (a0 a1 a2 : FVec Ideal S2x16x2048x64 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  unfold Cert.Pre_finite_inputs.fn at h0
  dsimp only at h0
  obtain ⟨h01, h2⟩ := IntOp.andi_eq_one.1 h0
  obtain ⟨h0', h1⟩ := IntOp.andi_eq_one.1 h01
  exact ⟨real_of_all a0 _ _ _ h0', real_of_all a1 _ _ _ h1, real_of_all a2 _ _ _ h2⟩

end Cert.Attn.Finite

end
-- ==== Proof.lean ====
/-
  Scaled-dot-product attention with materialised weights: the tiled kernel against the whole-array reference.

  Inputs q, k, v : f32[2, 16, 2048, 64]; results the attended values [2, 16, 2048, 64] and the attention
  weights [2, 16, 2048, 2048]. For each (batch, head) and query row r, with s c = (∑ d, q r d · k c d) · (1/8),
  m = max over c of s c, e c = exp (s c − m), l = ∑ c, e c:
      weights r c = e c · (1 / l),        values r d = (∑ c, e c · v c d) · (1 / l).
  The kernel computes exactly this, 512 query rows at a grid point, all 2048 keys and values resident
  (Proof/KernelRows.lean, Proof/KernelArrays.lean: its blocks tile the two result arrays).
  The reference divides the scores by √64 (= 8, so the same scale), takes each weight as the quotient e c / l and
  sums the weights against v (Proof/ReferenceRows.lean). The two agree on the extended reals when the entries
  of q, k and v are real — which is what the precondition says (Proof/FiniteInputs.lean): then l is a real,
  at least the one term exp 0 = 1 and so not zero, a quotient by it is the product with its reciprocal, and the
  reciprocal moves across the sum by distributivity (Proof/SoftmaxLaws.lean, Proof/AttnSpec.lean). A change of
  float format is the identity at the ideal instance, so the kernel's bf16 matrix operands change nothing.
  The idealisation rewrote no operation of the kernel, so there is nothing to preserve.
-/
import proofs.«412519_j18193481466322_3_alg».proof.Defs
import proofs.«412519_j18193481466322_3_alg».proof.Proof.Gen.Kernel
import proofs.«412519_j18193481466322_3_alg».proof.Proof.Gen.Kernel.Skeleton
import proofs.«412519_j18193481466322_3_alg».proof.Proof.Gen.Kernel.Launch
import proofs.«412519_j18193481466322_3_alg».proof.Proof.Gen.Kernel.Points
import proofs.«412519_j18193481466322_3_alg».proof.Proof.Gen.Kernel.Frame
import proofs.«412519_j18193481466322_3_alg».proof.Proof.Gen.KernelIdeal
import proofs.«412519_j18193481466322_3_alg».proof.Proof.Gen.KernelIdeal.Skeleton
import proofs.«412519_j18193481466322_3_alg».proof.Proof.Gen.KernelIdeal.Launch
import proofs.«412519_j18193481466322_3_alg».proof.Proof.Gen.KernelIdeal.Points
import proofs.«412519_j18193481466322_3_alg».proof.Proof.Gen.KernelIdeal.Frame
import proofs.«412519_j18193481466322_3_alg».proof.Proof.Gen.ReferenceIdeal
import proofs.«412519_j18193481466322_3_alg».proof.Proof.Gen.Pre_finite_inputs
import proofs.«412519_j18193481466322_3_alg».proof.Proof.Gen.KernelIdeal.Value
import proofs.«412519_j18193481466322_3_alg».proof.Proof.Gen.ReferenceIdeal.Run
import proofs.«412519_j18193481466322_3_alg».proof.Proof.Gen.ReferenceIdeal.Read
import proofs.«412519_j18193481466322_3_alg».proof.Proof.KernelArrays
import proofs.«412519_j18193481466322_3_alg».proof.Proof.ReferenceRows
import proofs.«412519_j18193481466322_3_alg».proof.Proof.FiniteInputs
import Idealize.ShloMosaic.Adequacy
import Idealize.ShloMosaic.Init

noncomputable section

namespace Cert.Proof

open Idealize.ShloMosaic Idealize.SL.Sem Cert.Attn

/-- The kernel as printed runs to the end without a fault and leaves q, k and v as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on real q, k and v, the kernel's two arrays and the reference's two arrays are the
    attended values and the attention weights of those inputs. -/
theorem algebraic : Cert.algebraic_KernelIdeal_ReferenceIdeal := by
  intro m ρ m' ρ' hpre hagree
  refine ⟨fun c => attnOut (Cert.KernelIdeal.Arrays.qarr m c) (Cert.KernelIdeal.Arrays.karr m c) (Cert.KernelIdeal.Arrays.varr m c),
    fun c => attnProbs (Cert.KernelIdeal.Arrays.qarr m c) (Cert.KernelIdeal.Arrays.karr m c),
    Cert.KernelIdeal.Arrays.run m ρ, ?_⟩
  refine (θ_run Cert.ReferenceIdeal.defs _ _).mono (fun _ h c => ?_) (Cert.ReferenceIdeal.Value.run (F := Ideal) m' ρ')
  obtain ⟨hq, hk, hv⟩ := Cert.Attn.Finite.reals_of_pre _ _ _ (hpre c)
  refine ⟨(h c).1.trans ?_, (h c).2.1.trans ?_, (h c).2.2⟩
  · rw [(hagree c).1, (hagree c).2.1, (hagree c).2.2]
    exact (Cert.ReferenceIdeal.Read.val_main_v15_eq _ _ _).trans (Cert.ReferenceIdeal.Rows.out_ref _ _ _ hq hk hv)
  · rw [(hagree c).1, (hagree c).2.1]
    exact (Cert.ReferenceIdeal.Read.val_main_v14_eq _ _).trans (Cert.ReferenceIdeal.Rows.probs_ref _ _ hq hk)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
